-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S64x128 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S128x64 : Shape := ⟨2, ![128, 64]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 106
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S128x128, .f32⟩
  | .hbm, ⟨49, _⟩ => ⟨S128x128, .f32⟩
  | .hbm, ⟨50, _⟩ => ⟨S128x64, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x64, .f32⟩
  | .hbm, ⟨88, _⟩ => ⟨S850000x1, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  transposes_S64x128_S128x64_1_0 : S64x128.Transposes [1, 0] S128x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S128x128, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S850000x1, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S128x64, .f32⟩
  | .hbm, ⟨97, _⟩ => ⟨S50000x64, .f32⟩
  | .hbm, ⟨98, _⟩ => ⟨S850000x1, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x64, .f32⟩
  | .hbm, ⟨108, _⟩ => ⟨S850000x64, .f32⟩
  | .hbm, ⟨109, _⟩ => ⟨S850000x64, .f32⟩
  | .hbm, ⟨110, _⟩ => ⟨S_, .f32⟩
  | .hbm, ⟨111, _⟩ => ⟨S50000x64, .f32⟩
  | .hbm, ⟨112, _⟩ => ⟨S850000x1, .i32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The layers of the network as whole-array functions over the extended reals, index by index.
  A dense layer takes row `i 0` of its left operand against column `i 1` of its right one: entry (r, c) is the sum
  over k < 128 of h[r, k] · w[k, c]. The rectified input of the second and third layers is max(a[r, k] + b[0, k], 0),
  the bias a [1, 128] row; the last layer adds its [1, 64] bias row to every row.
-/
import Idealize.ShloMosaic.PureOps.Ideal
import Idealize.ShloMosaic.Lib.ValueIdx

noncomputable section

namespace Cert.Spec

open Idealize.ShloMosaic Idealize.ShloMosaic.ValueIdx

abbrev SN128 : Shape := ⟨2, ![50000, 128]⟩
abbrev SN64 : Shape := ⟨2, ![50000, 64]⟩
abbrev SW128 : Shape := ⟨2, ![128, 128]⟩
abbrev SW64 : Shape := ⟨2, ![128, 64]⟩
abbrev SR128 : Shape := ⟨2, ![1, 128]⟩
abbrev SR64 : Shape := ⟨2, ![1, 64]⟩

/-- Entry (r, c) of h · w for w of 128 columns: the sum over k of h[r, k] · w[k, c]. -/
def dense128 (h : SN128.Idx → EReal) (w : SW128.Idx → EReal) : SN128.Idx → EReal :=
  fun i => ∑ k : Fin 128, h (ix2 (⟨(i 0).val, (i 0).isLt⟩ : Fin 50000) k) * w (ix2 k (⟨(i 1).val, (i 1).isLt⟩ : Fin 128))

/-- The same for w of 64 columns. -/
def dense64 (h : SN128.Idx → EReal) (w : SW64.Idx → EReal) : SN64.Idx → EReal :=
  fun i => ∑ k : Fin 128, h (ix2 (⟨(i 0).val, (i 0).isLt⟩ : Fin 50000) k) * w (ix2 k (⟨(i 1).val, (i 1).isLt⟩ : Fin 64))

/-- max(a[r, k] + b[0, k], 0): the bias row added to every row, then the rectifier. -/
def biasRelu (a : SN128.Idx → EReal) (b : SR128.Idx → EReal) : SN128.Idx → EReal :=
  fun i => max (a i + b (ix2 (0 : Fin 1) (⟨(i 1).val, (i 1).isLt⟩ : Fin 128))) 0

/-- a[r, c] + b[0, c]: the bias row added to every row. -/
def biasRow64 (a : SN64.Idx → EReal) (b : SR64.Idx → EReal) : SN64.Idx → EReal :=
  fun i => a i + b (ix2 (0 : Fin 1) (⟨(i 1).val, (i 1).isLt⟩ : Fin 64))

end Cert.Spec

end
-- ==== Proof.Region0.lean ====
/-
  The first pallas_call, read as a value at the ideal instance: grid point t loads rows 2000·t … 2000·t + 1999 of the node
  features and the whole [128, 128] transposed weight, and stores their matrix product (the change of float format on the
  way in is the identity on extended reals, the accumulator is zero). Entry (r, c) of a block is the sum over k of
  x[r, k] · w[k, c]; the 25 row blocks tile the [50000, 128] result, which therefore ends holding the dense layer of the
  whole arrays.
-/
import proofs.«122918_j10368051053156_1_alg».proof.Proof.Gen.KernelIdeal.Frame
import proofs.«122918_j10368051053156_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The node features and the transposed weight as the region finds them, at their literal types. -/
abbrev feat (c : Dev nD) : Vec Ideal S50000x128 .f32 := V c main_arg0
abbrev wt (c : Dev nD) : Vec Ideal S128x128 .f32 := V c main_v30

theorem hz : (![0, 0] : Fin 2 → Nat) = fun _ => 0 := funext fun a => by fin_cases a <;> rfl

/-! The product's operand indices at output index (r, c) and contraction index k: (r, k) on the left, (k, c) on the right. -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator at (r, c): the sum over k of x[r, k] · w[k, c]. -/
theorem product_apply (x : FVec Ideal S2000x128 .bf16) (w : FVec Ideal S128x128 .bf16) (j : S2000x128.Idx) :
    matmul dot_S2000x128_S128x128_S2000x128_1_0_0_1_n_n none x w (constant (F := Ideal) S2000x128 .f32 0x00000000#32) j
      = ∑ k : Fin 128, x (ix2 (⟨(j 0).val, (j 0).isLt⟩ : Fin 2000) k) * w (ix2 k (⟨(j 1).val, (j 1).isLt⟩ : Fin 128)) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = ix2 (⟨(j 0).val, (j 0).isLt⟩ : Fin 2000) k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = ix2 k (⟨(j 1).val, (j 1).isLt⟩ : Fin 128) := funext fun a => Fin.ext (by
    match a with
    | ⟨0, _⟩ => exact (rhs_0 _ _).trans hk
    | ⟨1, _⟩ => exact rhs_1 _ _)
  rw [el, er]

/-- The body's stored value at (r, c): the sum over k of its first load at (r, k) times its second at (k, c). -/
theorem pay_apply (x : Vec Ideal S2000x128 .f32) (w : Vec Ideal S128x128 .f32) (j : S2000x128.Idx) :
    k0_pay1 x w j = ∑ k : Fin 128, x (ix2 (⟨(j 0).val, (j 0).isLt⟩ : Fin 2000) k) * w (ix2 k (⟨(j 1).val, (j 1).isLt⟩ : Fin 128)) := by
  unfold k0_pay1
  simp only [shapeCast_self]
  exact product_apply (truncf .bf16 x bitsLt_bf16_f32) (truncf .bf16 w bitsLt_bf16_f32) j

/-- The index maps over the grid: point t works on row block t; the weight is block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense layer of the whole arrays. -/
theorem flushed_eq (c : Dev nD) (t : Fin cfg0.N) :
    (dat0 V c).flushed 2 t = ((cfg0.win 2).blk t).view.read (Elt Ideal) (dense128 (feat V c) (wt V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  refine (pay_apply (iblk0 V c 0 t) (iblk0 V c 1 t) j).trans ?_
  have hj0 : (j 0).val < 2000 := (j 0).isLt
  have hj1 : (j 1).val < 128 := (j 1).isLt
  show (∑ k : Fin 128, feat V c (((cfg0.win 0).blk t).view.emb (ix2 (⟨(j 0).val, (j 0).isLt⟩ : Fin 2000) k))
        * wt V c (((cfg0.win 1).blk t).view.emb (ix2 k (⟨(j 1).val, (j 1).isLt⟩ : Fin 128))))
    = dense128 (feat V c) (wt V c) (((cfg0.win 2).blk t).view.emb j)
  unfold dense128
  refine Finset.sum_congr rfl fun k _ => ?_
  have hk : k.val < 128 := k.isLt
  have h0 : ((cfg0.win 0).blk t).view.emb (ix2 (⟨(j 0).val, (j 0).isLt⟩ : Fin 2000) k)
      = ix2 (⟨((((cfg0.win 2).blk t).view.emb j) 0).val, ((((cfg0.win 2).blk t).view.emb j) 0).isLt⟩ : Fin 50000) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ix2 k (⟨(j 1).val, (j 1).isLt⟩ : Fin 128))
      = ix2 k (⟨((((cfg0.win 2).blk t).view.emb j) 1).val, ((((cfg0.win 2).blk t).view.emb j) 1).isLt⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row r lies in the block of point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := by show _ < grid0.N; rw [N_0]; omega
  refine ⟨⟨(i 0).val / 2000, hN⟩, flush0_2 _, ?_⟩
  obtain ⟨e0, e1, e2, e3, e4, e5⟩ := idx_facts ⟨(i 0).val / 2000, hN⟩
  rw [mem_blk]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000
              rw [e4]; show (i 0).val / 2000 * 2000 ≤ (i 0).val ∧ (i 0).val < (i 0).val / 2000 * 2000 + 2000; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128
              rw [e5]; omega

/-- The result array after the region: the dense layer of the node features and the transposed weight. -/
theorem final (c : Dev nD) : (dat0 V c).arrAt 2 cfg0.N = dense128 (feat V c) (wt V c) :=
  (dat0 V c).arrAt_eq_of_cover 2 _ (fun t _ => flushed_eq V c t) (cover)

end Cert.KernelIdeal.Region0

end
-- ==== Proof.Region1.lean ====
/-
  The second pallas_call, read as a value at the ideal instance: grid point t loads rows 2000·t … 2000·t + 1999 of the
  aggregated features, the [1, 128] bias row and the whole [128, 128] transposed weight; it adds the bias row to every row,
  takes the maximum with zero, and stores the matrix product of that with the weight. Entry (r, c) of a block is the sum
  over k of max(a[r, k] + b[0, k], 0) · w[k, c]; the 25 row blocks tile the [50000, 128] result, which ends holding the
  dense layer of the rectified whole array.
-/
import proofs.«122918_j10368051053156_1_alg».proof.Proof.Region0

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated features, the bias row and the transposed weight as the region finds them, at their literal types. -/
abbrev agg (c : Dev nD) : Vec Ideal S50000x128 .f32 := V c main_v46
abbrev brow (c : Dev nD) : Vec Ideal S1x128 .f32 := V c main_v47
abbrev wt (c : Dev nD) : Vec Ideal S128x128 .f32 := V c main_v31

theorem hz : (![0, 0] : Fin 2 → Nat) = fun _ => 0 := funext fun a => by fin_cases a <;> rfl

/-- The body's stored value at (r, c): the sum over k of max(a[r, k] + b[0, k], 0) · w[k, c] of its three loads. -/
theorem pay_apply (x : Vec Ideal S2000x128 .f32) (b : Vec Ideal S1x128 .f32) (w : Vec Ideal S128x128 .f32) (j : S2000x128.Idx) :
    k1_pay1 x b w j = ∑ k : Fin 128, max (x (ix2 (⟨(j 0).val, (j 0).isLt⟩ : Fin 2000) k) + b (ix2 (0 : Fin 1) k)) 0
      * w (ix2 k (⟨(j 1).val, (j 1).isLt⟩ : Fin 128)) := by
  unfold k1_pay1
  simp only [shapeCast_self]
  refine (Region0.product_apply _ _ j).trans (Finset.sum_congr rfl fun k _ => ?_)
  show max (x (ix2 (⟨(j 0).val, (j 0).isLt⟩ : Fin 2000) k) + broadcastTo S2000x128 b broadcasts_S1x128_S2000x128 (ix2 (⟨(j 0).val, (j 0).isLt⟩ : Fin 2000) k))
      (Ideal.ofBits .f32 0x00000000#32) * w (ix2 k (⟨(j 1).val, (j 1).isLt⟩ : Fin 128)) = _
  rw [Ideal.ofBits_zero_f32, broadcastTo_apply b broadcasts_S1x128_S2000x128 (ix2 (⟨(j 0).val, (j 0).isLt⟩ : Fin 2000) k) (ix2 (0 : Fin 1) k)
    (fun a => by match a with | ⟨0, _⟩ => rfl | ⟨1, _⟩ => rfl)]

/-- The index maps over the grid: point t works on row block t; the bias row and the weight are block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the dense layer of the rectified whole array. -/
theorem flushed_eq (c : Dev nD) (t : Fin cfg1.N) :
    (dat1 V c).flushed 3 t = ((cfg1.win 3).blk t).view.read (Elt Ideal) (dense128 (biasRelu (agg V c) (brow V c)) (wt V c)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x128) hz]
  obtain ⟨e0, e1, e2, e3, e4, e5, e6, e7⟩ := idx_facts t
  funext j
  refine (pay_apply (iblk1 V c 0 t) (iblk1 V c 1 t) (iblk1 V c 2 t) j).trans ?_
  have hj0 : (j 0).val < 2000 := (j 0).isLt
  have hj1 : (j 1).val < 128 := (j 1).isLt
  show (∑ k : Fin 128, max (agg V c (((cfg1.win 0).blk t).view.emb (ix2 (⟨(j 0).val, (j 0).isLt⟩ : Fin 2000) k))
          + brow V c (((cfg1.win 1).blk t).view.emb (ix2 (0 : Fin 1) k))) 0
        * wt V c (((cfg1.win 2).blk t).view.emb (ix2 k (⟨(j 1).val, (j 1).isLt⟩ : Fin 128))))
    = dense128 (biasRelu (agg V c) (brow V c)) (wt V c) (((cfg1.win 3).blk t).view.emb j)
  unfold dense128 biasRelu
  refine Finset.sum_congr rfl fun k _ => ?_
  have hk : k.val < 128 := k.isLt
  have h0 : ((cfg1.win 0).blk t).view.emb (ix2 (⟨(j 0).val, (j 0).isLt⟩ : Fin 2000) k)
      = ix2 (⟨((((cfg1.win 3).blk t).view.emb j) 0).val, ((((cfg1.win 3).blk t).view.emb j) 0).isLt⟩ : Fin 50000) k := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have h1 : ((cfg1.win 1).blk t).view.emb (ix2 (0 : Fin 1) k) = ix2 (0 : Fin 1) (⟨k.val, k.isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k (⟨(j 1).val, (j 1).isLt⟩ : Fin 128))
      = ix2 k (⟨((((cfg1.win 3).blk t).view.emb j) 1).val, ((((cfg1.win 3).blk t).view.emb j) 1).isLt⟩ : Fin 128) := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [h0, h1, h2]

/-- An index of the result is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v48).slice (win1_3.rect t)).set ↔ _
  rw [View.set_slice_whole, Rect.mem_set_unit]
  exact Iff.rfl

/-- Row r lies in the block of point r / 2000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 2000 < cfg1.N := by show _ < grid1.N; rw [N_1]; omega
  refine ⟨⟨(i 0).val / 2000, hN⟩, flush1_3 _, ?_⟩
  obtain ⟨e0, e1, e2, e3, e4, e5, e6, e7⟩ := idx_facts ⟨(i 0).val / 2000, hN⟩
  rw [mem_blk]
  intro a
  match a with
  | ⟨0, _⟩ => show win1_3.index ⟨(i 0).val / 2000, hN⟩ (0 : Fin 2) * 2000 ≤ (i 0).val ∧ (i 0).val < win1_3.index ⟨(i 0).val / 2000, hN⟩ (0 : Fin 2) * 2000 + 2000
              rw [e6]; show (i 0).val / 2000 * 2000 ≤ (i 0).val ∧ (i 0).val < (i 0).val / 2000 * 2000 + 2000; omega
  | ⟨1, _⟩ => show win1_3.index ⟨(i 0).val / 2000, hN⟩ (1 : Fin 2) * 128 ≤ (i 1).val ∧ (i 1).val < win1_3.index ⟨(i 0).val / 2000, hN⟩ (1 : Fin 2) * 128 + 128
              rw [e7]; omega

/-- The result array after the region: the dense layer of the rectified, bias-added aggregate and the transposed weight. -/
theorem final (c : Dev nD) : (dat1 V c).arrAt 3 cfg1.N = dense128 (biasRelu (agg V c) (brow V c)) (wt V c) :=
  (dat1 V c).arrAt_eq_of_cover 3 _ (fun t _ => flushed_eq V c t) (cover)

end Cert.KernelIdeal.Region1

end
-- ==== Proof.Region2.lean ====
/-
  The third pallas_call, read as a value at the ideal instance: as the second, with a [128, 64] transposed weight. Grid point t
  loads rows 2000·t … 2000·t + 1999 of the aggregated features, the [1, 128] bias row and the whole weight, and stores the
  product of the rectified, bias-added rows with the weight: entry (r, c) is the sum over k of
  max(a[r, k] + b[0, k], 0) · w[k, c], c < 64. The 25 row blocks tile the [50000, 64] result.
-/
import proofs.«122918_j10368051053156_1_alg».proof.Proof.Gen.KernelIdeal.Frame
import proofs.«122918_j10368051053156_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated features, the bias row and the transposed weight as the region finds them, at their literal types. -/
abbrev agg (c : Dev nD) : Vec Ideal S50000x128 .f32 := V c main_v61
abbrev brow (c : Dev nD) : Vec Ideal S1x128 .f32 := V c main_v62
abbrev wt (c : Dev nD) : Vec Ideal S128x64 .f32 := V c main_v32

theorem hz : (![0, 0] : Fin 2 → Nat) = fun _ => 0 := funext fun a => by fin_cases a <;> rfl

/-! The product's operand indices at output index (r, c) and contraction index k: (r, k) on the left, (k, c) on the right. -/

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator at (r, c): the sum over k of x[r, k] · w[k, c]. -/
theorem product_apply (x : FVec Ideal S2000x128 .bf16) (w : FVec Ideal S128x64 .bf16) (j : S2000x64.Idx) :
    matmul dot_S2000x128_S128x64_S2000x64_1_0_0_1_n_n none x w (constant (F := Ideal) S2000x64 .f32 0x00000000#32) j
      = ∑ k : Fin 128, x (ix2 (⟨(j 0).val, (j 0).isLt⟩ : Fin 2000) k) * w (ix2 k (⟨(j 1).val, (j 1).isLt⟩ : Fin 64)) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = ix2 (⟨(j 0).val, (j 0).isLt⟩ : Fin 2000) k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((ValueIdx.contrEquiv1 dot_S2000x128_S128x64_S2000x64_1_0_0_1_n_n 128 rfl rfl).symm k) = ix2 k (⟨(j 1).val, (j 1).isLt⟩ : Fin 64) := funext fun a => Fin.ext (by
    match a with
    | ⟨0, _⟩ => exact (rhs_0 _ _).trans hk
    | ⟨1, _⟩ => exact rhs_1 _ _)
  rw [el, er]

/-- The body's stored value at (r, c): the sum over k of max(a[r, k] + b[0, k], 0) · w[k, c] of its three loads. -/
theorem pay_apply (x : Vec Ideal S2000x128 .f32) (b : Vec Ideal S1x128 .f32) (w : Vec Ideal S128x64 .f32) (j : S2000x64.Idx) :
    k2_pay1 x b w j = ∑ k : Fin 128, max (x (ix2 (⟨(j 0).val, (j 0).isLt⟩ : Fin 2000) k) + b (ix2 (0 : Fin 1) k)) 0
      * w (ix2 k (⟨(j 1).val, (j 1).isLt⟩ : Fin 64)) := by
  unfold k2_pay1
  simp only [shapeCast_self]
  refine (product_apply _ _ j).trans (Finset.sum_congr rfl fun k _ => ?_)
  show max (x (ix2 (⟨(j 0).val, (j 0).isLt⟩ : Fin 2000) k) + broadcastTo S2000x128 b broadcasts_S1x128_S2000x128 (ix2 (⟨(j 0).val, (j 0).isLt⟩ : Fin 2000) k))
      (Ideal.ofBits .f32 0x00000000#32) * w (ix2 k (⟨(j 1).val, (j 1).isLt⟩ : Fin 64)) = _
  rw [Ideal.ofBits_zero_f32, broadcastTo_apply b broadcasts_S1x128_S2000x128 (ix2 (⟨(j 0).val, (j 0).isLt⟩ : Fin 2000) k) (ix2 (0 : Fin 1) k)
    (fun a => by match a with | ⟨0, _⟩ => rfl | ⟨1, _⟩ => rfl)]

/-- The index maps over the grid: point t works on row block t; the bias row and the weight are block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the dense layer of the rectified whole array. -/
theorem flushed_eq (c : Dev nD) (t : Fin cfg2.N) :
    (dat2 V c).flushed 3 t = ((cfg2.win 3).blk t).view.read (Elt Ideal) (dense64 (biasRelu (agg V c) (brow V c)) (wt V c)) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz, View.ld_unit_zero (S := S128x64) hz]
  obtain ⟨e0, e1, e2, e3, e4, e5, e6, e7⟩ := idx_facts t
  funext j
  refine (pay_apply (iblk2 V c 0 t) (iblk2 V c 1 t) (iblk2 V c 2 t) j).trans ?_
  have hj0 : (j 0).val < 2000 := (j 0).isLt
  have hj1 : (j 1).val < 64 := (j 1).isLt
  show (∑ k : Fin 128, max (agg V c (((cfg2.win 0).blk t).view.emb (ix2 (⟨(j 0).val, (j 0).isLt⟩ : Fin 2000) k))
          + brow V c (((cfg2.win 1).blk t).view.emb (ix2 (0 : Fin 1) k))) 0
        * wt V c (((cfg2.win 2).blk t).view.emb (ix2 k (⟨(j 1).val, (j 1).isLt⟩ : Fin 64))))
    = dense64 (biasRelu (agg V c) (brow V c)) (wt V c) (((cfg2.win 3).blk t).view.emb j)
  unfold dense64 biasRelu
  refine Finset.sum_congr rfl fun k _ => ?_
  have hk : k.val < 128 := k.isLt
  have h0 : ((cfg2.win 0).blk t).view.emb (ix2 (⟨(j 0).val, (j 0).isLt⟩ : Fin 2000) k)
      = ix2 (⟨((((cfg2.win 3).blk t).view.emb j) 0).val, ((((cfg2.win 3).blk t).view.emb j) 0).isLt⟩ : Fin 50000) k := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * k.val = k.val; omega
  have h1 : ((cfg2.win 1).blk t).view.emb (ix2 (0 : Fin 1) k) = ix2 (0 : Fin 1) (⟨k.val, k.isLt⟩ : Fin 128) := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (ix2 k (⟨(j 1).val, (j 1).isLt⟩ : Fin 64))
      = ix2 k (⟨((((cfg2.win 3).blk t).view.emb j) 1).val, ((((cfg2.win 3).blk t).view.emb j) 1).isLt⟩ : Fin 64) := by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  rw [h0, h1, h2]

/-- An index of the result is in point t's block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v63).slice (win2_3.rect t)).set ↔ _
  rw [View.set_slice_whole, Rect.mem_set_unit]
  exact Iff.rfl

/-- Row r lies in the block of point r / 2000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 2000 < cfg2.N := by show _ < grid2.N; rw [N_2]; omega
  refine ⟨⟨(i 0).val / 2000, hN⟩, flush2_3 _, ?_⟩
  obtain ⟨e0, e1, e2, e3, e4, e5, e6, e7⟩ := idx_facts ⟨(i 0).val / 2000, hN⟩
  rw [mem_blk]
  intro a
  match a with
  | ⟨0, _⟩ => show win2_3.index ⟨(i 0).val / 2000, hN⟩ (0 : Fin 2) * 2000 ≤ (i 0).val ∧ (i 0).val < win2_3.index ⟨(i 0).val / 2000, hN⟩ (0 : Fin 2) * 2000 + 2000
              rw [e6]; show (i 0).val / 2000 * 2000 ≤ (i 0).val ∧ (i 0).val < (i 0).val / 2000 * 2000 + 2000; omega
  | ⟨1, _⟩ => show win2_3.index ⟨(i 0).val / 2000, hN⟩ (1 : Fin 2) * 64 ≤ (i 1).val ∧ (i 1).val < win2_3.index ⟨(i 0).val / 2000, hN⟩ (1 : Fin 2) * 64 + 64
              rw [e7]; omega

/-- The result array after the region: the dense layer of the rectified, bias-added aggregate and the transposed weight. -/
theorem final (c : Dev nD) : (dat2 V c).arrAt 3 cfg2.N = dense64 (biasRelu (agg V c) (brow V c)) (wt V c) :=
  (dat2 V c).arrAt_eq_of_cover 3 _ (fun t _ => flushed_eq V c t) (cover)

end Cert.KernelIdeal.Region2

end
-- ==== Proof.Region3.lean ====
/-
  The last pallas_call, read as a value at the ideal instance: each of its 25 grid points loads rows 2000·t … 2000·t + 1999 of
  the aggregated features and the [1, 64] bias row, and stores their sum; the 25 row blocks tile the [50000, 64] result, so
  the result array ends holding a[r, c] + b[0, c] at every index.
-/
import proofs.«122918_j10368051053156_1_alg».proof.Proof.Gen.KernelIdeal.Frame
import proofs.«122918_j10368051053156_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated features and the bias row as the region finds them, at their literal types. -/
abbrev agg (c : Dev nD) : Vec Ideal S50000x64 .f32 := V c main_v76
abbrev brow (c : Dev nD) : Vec Ideal S1x64 .f32 := V c main_v77

theorem hz : (![0, 0] : Fin 2 → Nat) = fun _ => 0 := funext fun a => by fin_cases a <;> rfl

/-- The body's stored value at (r, c) is its first load at (r, c) plus its second at (0, c). -/
theorem pay_apply (x : Vec Ideal S2000x64 .f32) (b : Vec Ideal S1x64 .f32) (j : S2000x64.Idx) :
    k3_pay1 x b j = x j + b (ix2 (0 : Fin 1) (⟨(j 1).val, (j 1).isLt⟩ : Fin 64)) := by
  unfold k3_pay1
  simp only [shapeCast_self]
  show x j + broadcastTo S2000x64 b broadcasts_S1x64_S2000x64 j = _
  rw [broadcastTo_apply b broadcasts_S1x64_S2000x64 j (ix2 (0 : Fin 1) (⟨(j 1).val, (j 1).isLt⟩ : Fin 64))
    (fun a => by match a with | ⟨0, _⟩ => rfl | ⟨1, _⟩ => rfl)]

/-- The index maps over the grid: point t works on row block t, column block 0; the bias row is block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias-added array. -/
theorem flushed_eq (c : Dev nD) (t : Fin cfg3.N) :
    (dat3 V c).flushed 2 t = ((cfg3.win 2).blk t).view.read (Elt Ideal)
      (biasRow64 (agg V c) (brow V c)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨e0, e1, e2, e3, e4, e5⟩ := idx_facts t
  funext j
  refine (pay_apply (iblk3 V c 0 t) (iblk3 V c 1 t) j).trans ?_
  have hj0 : (j 0).val < 2000 := (j 0).isLt
  have hj1 : (j 1).val < 64 := (j 1).isLt
  show agg V c (((cfg3.win 0).blk t).view.emb j) + brow V c (((cfg3.win 1).blk t).view.emb (ix2 (0 : Fin 1) (⟨(j 1).val, (j 1).isLt⟩ : Fin 64)))
    = biasRow64 (agg V c) (brow V c) (((cfg3.win 2).blk t).view.emb j)
  unfold biasRow64
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (⟨(j 1).val, (j 1).isLt⟩ : Fin 64))
      = ix2 (0 : Fin 1) (⟨((((cfg3.win 2).blk t).view.emb j) 1).val, ((((cfg3.win 2).blk t).view.emb j) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An index of the result is in point t's block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v78).slice (win3_2.rect t)).set ↔ _
  rw [View.set_slice_whole, Rect.mem_set_unit]
  exact Iff.rfl

/-- Row r lies in the block of point r / 2000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : (i 0).val / 2000 < cfg3.N := by show _ < grid3.N; rw [N_3]; omega
  refine ⟨⟨(i 0).val / 2000, hN⟩, flush3_2 _, ?_⟩
  obtain ⟨e0, e1, e2, e3, e4, e5⟩ := idx_facts ⟨(i 0).val / 2000, hN⟩
  rw [mem_blk]
  intro a
  match a with
  | ⟨0, _⟩ => show win3_2.index ⟨(i 0).val / 2000, hN⟩ (0 : Fin 2) * 2000 ≤ (i 0).val ∧ (i 0).val < win3_2.index ⟨(i 0).val / 2000, hN⟩ (0 : Fin 2) * 2000 + 2000
              rw [e4]; show (i 0).val / 2000 * 2000 ≤ (i 0).val ∧ (i 0).val < (i 0).val / 2000 * 2000 + 2000; omega
  | ⟨1, _⟩ => show win3_2.index ⟨(i 0).val / 2000, hN⟩ (1 : Fin 2) * 64 ≤ (i 1).val ∧ (i 1).val < win3_2.index ⟨(i 0).val / 2000, hN⟩ (1 : Fin 2) * 64 + 64
              rw [e5]; omega

/-- The result array after the region: the bias row added to every row of the aggregated features. -/
theorem final (c : Dev nD) : (dat3 V c).arrAt 2 cfg3.N
    = biasRow64 (agg V c) (brow V c) :=
  (dat3 V c).arrAt_eq_of_cover 2 _ (fun t _ => flushed_eq V c t) (cover)

end Cert.KernelIdeal.Region3

end
-- ==== Proof.RefStages.lean ====
/-
  The reference read stage by stage at the ideal instance, against the whole-array functions of the specification.
  Its three `dot_general`s are dense layers (entry (r, c) the sum over k of h[r, k] · w[k, c]); each bias is broadcast to a
  [1, n] row and then to every row, added, and (but for the last) followed by the maximum with zero; between them sits the
  propagation, the same chain of gather, product with the edge weights and scatter-add each time, which is named here as ONE
  function of the features it is applied to and never opened. `net` is the whole reference as their composition.
-/
import proofs.«122918_j10368051053156_1_alg».proof.Proof.RefRead
import proofs.«122918_j10368051053156_1_alg».proof.Proof.Spec

noncomputable section

namespace Cert.ReferenceIdeal.Stages

open Cert.ReferenceIdeal Cert.ReferenceIdeal.ReadP Cert.Spec
open Idealize.ShloMosaic Idealize.ShloMosaic.ValueIdx

/-! ## The propagation, as one function of the features -/

section Propagation
variable {F : FTy → Type} [FloatOps F] (e : IVec S2x800000 32)

/-- Messages norm[e] · feat[row[e], :] scatter-added at col[e], over the 850000 edges and self loops: 128 columns. -/
def prop128 (feat : FVec F S50000x128 .f32) : FVec F S50000x128 .f32 :=
  Host.scatterAdd (F := F) scatter_S50000x128_S850000x1_S850000x128_1_0_0_1 (val_main_v42 (F := F)) (val_main_v43 (F := F) e)
    (mulf (F := F) (val_main_v40 (F := F) e) (Host.gather gather_S50000x128_S850000x1_S850000x128_1_0_n_n_0_1_1128 feat (val_main_v38 (F := F) e)))

/-- The same over 64 columns. -/
def prop64 (feat : FVec F S50000x64 .f32) : FVec F S50000x64 .f32 :=
  Host.scatterAdd (F := F) scatter_S50000x64_S850000x1_S850000x64_1_0_0_1 (val_main_v80 (F := F)) (val_main_v81 (F := F) e)
    (mulf (F := F) (val_main_v78 (F := F) e) (Host.gather gather_S50000x64_S850000x1_S850000x64_1_0_n_n_0_1_164 feat (val_main_v76 (F := F) e)))

end Propagation

variable (x0 : FVec Ideal S50000x128 .f32) (x1 : IVec S2x800000 32)
  (x2 : FVec Ideal S128x128 .f32) (x3 : FVec Ideal S128 .f32)
  (x4 : FVec Ideal S128x128 .f32) (x5 : FVec Ideal S128 .f32)
  (x6 : FVec Ideal S64x128 .f32) (x7 : FVec Ideal S64 .f32)

theorem v44_eq : val_main_v44 (F := Ideal) x0 x1 x2 = prop128 (F := Ideal) x1 (val_main_v31 (F := Ideal) x0 x2) := rfl
theorem v63_eq : val_main_v63 (F := Ideal) x0 x1 x2 x3 x4 = prop128 (F := Ideal) x1 (val_main_v50 (F := Ideal) x0 x1 x2 x3 x4) := rfl
theorem v82_eq : val_main_v82 (F := Ideal) x0 x1 x2 x3 x4 x5 x6 = prop64 (F := Ideal) x1 (val_main_v69 (F := Ideal) x0 x1 x2 x3 x4 x5 x6) := rfl

/-! ## The matrix products are dense layers -/

theorem dot128_eq (h : FVec Ideal S50000x128 .f32) (w : FVec Ideal S128x128 .f32) :
    Host.dotGeneral (F := Ideal) dot_S50000x128_S128x128_S50000x128_1_0_0_1_n_n none h w = dense128 h w := by
  funext i
  simp only [Host.dotGeneral]
  rw [Ideal.dotGeneral_apply, ← Equiv.sum_comp (ValueIdx.contrEquiv1 dot_S50000x128_S128x128_S50000x128_1_0_0_1_n_n 128 rfl rfl).symm]
  unfold dense128
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (⟨(i 0).val, (i 0).isLt⟩ : Fin 50000) k := funext fun a => Fin.ext (by
    match a with
    | ⟨0, _⟩ => exact lhs_main_v31_0 _ _
    | ⟨1, _⟩ => exact (lhs_main_v31_1 _ _).trans hk)
  have er : dot_S50000x128_S128x128_S50000x128_1_0_0_1_n_n.rhsIdx i ((ValueIdx.contrEquiv1 dot_S50000x128_S128x128_S50000x128_1_0_0_1_n_n 128 rfl rfl).symm k) = ix2 k (⟨(i 1).val, (i 1).isLt⟩ : Fin 128) := funext fun a => Fin.ext (by
    match a with
    | ⟨0, _⟩ => exact (rhs_main_v31_0 _ _).trans hk
    | ⟨1, _⟩ => exact rhs_main_v31_1 _ _)
  rw [el, er]

theorem dot64_eq (h : FVec Ideal S50000x128 .f32) (w : FVec Ideal S128x64 .f32) :
    Host.dotGeneral (F := Ideal) dot_S50000x128_S128x64_S50000x64_1_0_0_1_n_n none h w = dense64 h w := by
  funext i
  simp only [Host.dotGeneral]
  rw [Ideal.dotGeneral_apply, ← Equiv.sum_comp (ValueIdx.contrEquiv1 dot_S50000x128_S128x64_S50000x64_1_0_0_1_n_n 128 rfl rfl).symm]
  unfold dense64
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (⟨(i 0).val, (i 0).isLt⟩ : Fin 50000) k := funext fun a => Fin.ext (by
    match a with
    | ⟨0, _⟩ => exact lhs_main_v69_0 _ _
    | ⟨1, _⟩ => exact (lhs_main_v69_1 _ _).trans hk)
  have er : dot_S50000x128_S128x64_S50000x64_1_0_0_1_n_n.rhsIdx i ((ValueIdx.contrEquiv1 dot_S50000x128_S128x64_S50000x64_1_0_0_1_n_n 128 rfl rfl).symm k) = ix2 k (⟨(i 1).val, (i 1).isLt⟩ : Fin 64) := funext fun a => Fin.ext (by
    match a with
    | ⟨0, _⟩ => exact (rhs_main_v69_0 _ _).trans hk
    | ⟨1, _⟩ => exact rhs_main_v69_1 _ _)
  rw [el, er]

theorem v31_eq : val_main_v31 (F := Ideal) x0 x2 = dense128 x0 (val_main_v30 (F := Ideal) x2) := by
  unfold val_main_v31; exact dot128_eq _ _
theorem v50_eq : val_main_v50 (F := Ideal) x0 x1 x2 x3 x4 = dense128 (val_main_v48 (F := Ideal) x0 x1 x2 x3) (val_main_v49 (F := Ideal) x4) := by
  unfold val_main_v50; exact dot128_eq _ _
theorem v69_eq : val_main_v69 (F := Ideal) x0 x1 x2 x3 x4 x5 x6 = dense64 (val_main_v67 (F := Ideal) x0 x1 x2 x3 x4 x5) (val_main_v68 (F := Ideal) x6) := by
  unfold val_main_v69; exact dot64_eq _ _

/-! ## Bias, then the rectifier -/

theorem v48_eq : val_main_v48 (F := Ideal) x0 x1 x2 x3 = biasRelu (val_main_v44 (F := Ideal) x0 x1 x2) (val_main_v45 (F := Ideal) x3) := by
  funext i
  rw [val_main_v48_apply, val_main_v47_apply, val_main_v46_apply, val_main_call1_v0_apply, val_main_call1_cst_apply]
  have e : idx_main_v46 i = ix2 (0 : Fin 1) (⟨(i 1).val, (i 1).isLt⟩ : Fin 128) := funext fun a => Fin.ext (by
    match a with | ⟨0, _⟩ => rfl | ⟨1, _⟩ => rfl)
  rw [e]
  unfold biasRelu
  show max (val_main_v44 (F := Ideal) x0 x1 x2 i + val_main_v45 (F := Ideal) x3 (ix2 (0 : Fin 1) (⟨(i 1).val, (i 1).isLt⟩ : Fin 128))) (Ideal.ofBits .f32 0x00000000#32) = _
  rw [Ideal.ofBits_zero_f32]

theorem v67_eq : val_main_v67 (F := Ideal) x0 x1 x2 x3 x4 x5 = biasRelu (val_main_v63 (F := Ideal) x0 x1 x2 x3 x4) (val_main_v64 (F := Ideal) x5) := by
  funext i
  rw [val_main_v67_apply, val_main_v66_apply, val_main_v65_apply, val_main_call2_v0_apply, val_main_call2_cst_apply]
  have e : idx_main_v65 i = ix2 (0 : Fin 1) (⟨(i 1).val, (i 1).isLt⟩ : Fin 128) := funext fun a => Fin.ext (by
    match a with | ⟨0, _⟩ => rfl | ⟨1, _⟩ => rfl)
  rw [e]
  unfold biasRelu
  show max (val_main_v63 (F := Ideal) x0 x1 x2 x3 x4 i + val_main_v64 (F := Ideal) x5 (ix2 (0 : Fin 1) (⟨(i 1).val, (i 1).isLt⟩ : Fin 128))) (Ideal.ofBits .f32 0x00000000#32) = _
  rw [Ideal.ofBits_zero_f32]

theorem v85_eq : val_main_v85 (F := Ideal) x0 x1 x2 x3 x4 x5 x6 x7 = biasRow64 (val_main_v82 (F := Ideal) x0 x1 x2 x3 x4 x5 x6) (val_main_v83 (F := Ideal) x7) := by
  funext i
  rw [val_main_v85_apply, val_main_v84_apply]
  have e : idx_main_v84 i = ix2 (0 : Fin 1) (⟨(i 1).val, (i 1).isLt⟩ : Fin 64) := funext fun a => Fin.ext (by
    match a with | ⟨0, _⟩ => rfl | ⟨1, _⟩ => rfl)
  rw [e]
  rfl

/-! ## The whole reference -/

/-- Three layers: project, propagate, add the bias, rectify (not after the last). -/
def net : FVec Ideal S50000x64 .f32 :=
  biasRow64 (prop64 (F := Ideal) x1 (dense64 (biasRelu (prop128 (F := Ideal) x1 (dense128 (biasRelu (prop128 (F := Ideal) x1 (dense128 x0 (val_main_v30 (F := Ideal) x2)))
    (val_main_v45 (F := Ideal) x3)) (val_main_v49 (F := Ideal) x4))) (val_main_v64 (F := Ideal) x5)) (val_main_v68 (F := Ideal) x6)))
    (val_main_v83 (F := Ideal) x7)

theorem v85_net : val_main_v85 (F := Ideal) x0 x1 x2 x3 x4 x5 x6 x7 = net x0 x1 x2 x3 x4 x5 x6 x7 := by
  rw [v85_eq, v82_eq, v69_eq, v67_eq, v63_eq, v50_eq, v48_eq, v44_eq, v31_eq]
  rfl

end Cert.ReferenceIdeal.Stages

end
-- ==== Proof.Boundaries.lean ====
/-
  The kernel's run followed from boundary to boundary. @main is a prelude of host operations (the edge lists with their self
  loops, the degree normalisation, the transposed weights), then four pallas_calls with a propagation between each two. At
  every boundary the buffers a later segment reads are stated as values of the launch contents: the prelude's results (which
  no later segment writes) are carried unchanged (the table of those facts is its own module); each propagation is the
  reference's own chain of gather, product with the edge weights and scatter-add, applied to the result of the pallas_call
  before it (this much holds at any float instance, and is stated so); at the ideal instance each pallas_call's result is the
  dense layer the region modules prove. The last boundary's result buffer is then the reference's whole function of the
  arguments.
-/
import proofs.«122918_j10368051053156_1_alg».proof.Proof.Gen.KernelIdeal.Frame
import proofs.«122918_j10368051053156_1_alg».proof.Proof.Region0
import proofs.«122918_j10368051053156_1_alg».proof.Proof.Region1
import proofs.«122918_j10368051053156_1_alg».proof.Proof.Region2
import proofs.«122918_j10368051053156_1_alg».proof.Proof.Region3
import proofs.«122918_j10368051053156_1_alg».proof.Proof.RefStages
import proofs.«122918_j10368051053156_1_alg».proof.Proof.Carried
import Idealize.ShloMosaic.Lib.StableHlo.Run

set_option maxRecDepth 16384

noncomputable section

namespace Cert.KernelIdeal.Boundaries

open Cert.KernelIdeal Cert.KernelIdeal.Gen Cert.KernelIdeal.Carried Cert.Spec
open Cert.ReferenceIdeal.ReadP Cert.ReferenceIdeal.Stages
open Idealize.ShloMosaic Idealize.ShloMosaic.TcCoe Idealize.ShloMosaic.ValueIdx Idealize.ShloMosaic.StableHlo Idealize.SL.Sem

/-! ## The host stretches between the pallas_calls, at any float instance -/

section Stretches

variable {F : FTy → Type} [FloatOps F]
variable (m : (ℓ : Loc nD τ sig) → Buf (Elt F) ℓ) (ρ : Dev nD → PrngReg) (c : Dev nD)

set_option maxHeartbeats 4000000 in
/-- After the first pallas_call: its result propagated; the first bias as a row; the second weight still transposed. -/
theorem agg0_of : W5 m ρ c (Proc.devRef .tc main_v46) = prop128 (F := F) (a1 m c) (W4 m ρ c (Proc.devRef .tc main_v33)) := by
  dsimp only [W5, hostOps1]
  after_results
  rw [k4_v6, k4_v29, k4_v3]
  rfl
theorem brow0_of : W5 m ρ c (Proc.devRef .tc main_v47) = shapeCast S1x128 (a3 m c) shapeCasts_S128_S1x128 := by
  dsimp only [W5, hostOps1]
  after_results
  rw [k4_arg3]
  rfl
theorem wt1_of : W5 m ρ c (Proc.devRef .tc main_v31) = val_main_v49 (F := F) (a4 m c) := by
  dsimp only [W5, hostOps1]
  after_results
  exact k4_v31 m ρ c

set_option maxHeartbeats 4000000 in
/-- After the second pallas_call. -/
theorem agg1_of : W7 m ρ c (Proc.devRef .tc main_v61) = prop128 (F := F) (a1 m c) (W6 m ρ c (Proc.devRef .tc main_v48)) := by
  dsimp only [W7, hostOps2]
  after_results
  rw [k6_v6, k6_v29, k6_v3]
  rfl
theorem brow1_of : W7 m ρ c (Proc.devRef .tc main_v62) = shapeCast S1x128 (a5 m c) shapeCasts_S128_S1x128 := by
  dsimp only [W7, hostOps2]
  after_results
  rw [k6_arg5]
  rfl
theorem wt2_of : W7 m ρ c (Proc.devRef .tc main_v32) = val_main_v68 (F := F) (a6 m c) := by
  dsimp only [W7, hostOps2]
  after_results
  exact k6_v32 m ρ c

set_option maxHeartbeats 4000000 in
/-- After the third pallas_call. -/
theorem agg2_of : W9 m ρ c (Proc.devRef .tc main_v76) = prop64 (F := F) (a1 m c) (W8 m ρ c (Proc.devRef .tc main_v63)) := by
  dsimp only [W9, hostOps3]
  after_results
  rw [k8_v6, k8_v29, k8_v3]
  rfl
theorem brow2_of : W9 m ρ c (Proc.devRef .tc main_v77) = shapeCast S1x64 (a7 m c) shapeCasts_S64_S1x64 := by
  dsimp only [W9, hostOps3]
  after_results
  rw [k8_arg7]
  rfl

end Stretches

/-! ## At the ideal instance -/

variable (m : (ℓ : Loc nD τ sig) → Buf (Elt Ideal) ℓ) (ρ : Dev nD → PrngReg) (c : Dev nD)

/-! ### A bias reshaped to a row is the bias broadcast to a row -/

theorem row128_eq (b : Vec Ideal S128 .f32) (h : S128.ShapeCasts S1x128) : shapeCast S1x128 b h = val_main_v45 (F := Ideal) b := by
  funext i
  rw [val_main_v45_apply]
  refine shapeCast_apply b h i (idx_main_v45 i) ?_
  rw [Shape.rowMajor_val_one, Shape.rowMajor_val_two]
  show (i 1).val = (i 0).val * 128 + (i 1).val
  have : (i 0).val < 1 := (i 0).isLt
  omega

theorem row128'_eq (b : Vec Ideal S128 .f32) (h : S128.ShapeCasts S1x128) : shapeCast S1x128 b h = val_main_v64 (F := Ideal) b := by
  funext i
  rw [val_main_v64_apply]
  refine shapeCast_apply b h i (idx_main_v64 i) ?_
  rw [Shape.rowMajor_val_one, Shape.rowMajor_val_two]
  show (i 1).val = (i 0).val * 128 + (i 1).val
  have : (i 0).val < 1 := (i 0).isLt
  omega

theorem row64_eq (b : Vec Ideal S64 .f32) (h : S64.ShapeCasts S1x64) : shapeCast S1x64 b h = val_main_v83 (F := Ideal) b := by
  funext i
  rw [val_main_v83_apply]
  refine shapeCast_apply b h i (idx_main_v83 i) ?_
  rw [Shape.rowMajor_val_one, Shape.rowMajor_val_two]
  show (i 1).val = (i 0).val * 64 + (i 1).val
  have : (i 0).val < 1 := (i 0).isLt
  omega

/-! ### The four pallas_calls -/

/-- The first projection. -/
theorem proj0 : W4 m ρ c (Proc.devRef .tc main_v33) = dense128 (a0 m c) (val_main_v30 (F := Ideal) (a2 m c)) := by
  refine (W4_arr m ρ c 2).trans ((Region0.final (V3 m ρ) c).trans ?_)
  show dense128 (W3 m ρ c (Proc.devRef .tc main_arg0)) (W3 m ρ c (Proc.devRef .tc main_v30)) = _
  rw [e3_arg0, e3_v30]

/-- The second projection, of the rectified, bias-added propagation of the first. -/
theorem proj1 : W6 m ρ c (Proc.devRef .tc main_v48) = dense128 (biasRelu (prop128 (F := Ideal) (a1 m c) (dense128 (a0 m c) (val_main_v30 (F := Ideal) (a2 m c))))
    (val_main_v45 (F := Ideal) (a3 m c))) (val_main_v49 (F := Ideal) (a4 m c)) := by
  refine (W6_arr m ρ c 3).trans ((Region1.final (V5 m ρ) c).trans ?_)
  show dense128 (biasRelu (W5 m ρ c (Proc.devRef .tc main_v46)) (W5 m ρ c (Proc.devRef .tc main_v47))) (W5 m ρ c (Proc.devRef .tc main_v31)) = _
  rw [agg0_of, brow0_of, wt1_of, proj0, row128_eq]

/-- The third projection. -/
theorem proj2 : W8 m ρ c (Proc.devRef .tc main_v63) = dense64 (biasRelu (prop128 (F := Ideal) (a1 m c) (dense128 (biasRelu (prop128 (F := Ideal) (a1 m c) (dense128 (a0 m c) (val_main_v30 (F := Ideal) (a2 m c))))
    (val_main_v45 (F := Ideal) (a3 m c))) (val_main_v49 (F := Ideal) (a4 m c)))) (val_main_v64 (F := Ideal) (a5 m c))) (val_main_v68 (F := Ideal) (a6 m c)) := by
  refine (W8_arr m ρ c 3).trans ((Region2.final (V7 m ρ) c).trans ?_)
  show dense64 (biasRelu (W7 m ρ c (Proc.devRef .tc main_v61)) (W7 m ρ c (Proc.devRef .tc main_v62))) (W7 m ρ c (Proc.devRef .tc main_v32)) = _
  rw [agg1_of, brow1_of, wt2_of, proj1, row128'_eq]

/-- THE RESULT: the last boundary's result buffer holds the reference's function of the arguments. -/
theorem result : W10 m ρ c (Proc.devRef .tc main_v78) = net (a0 m c) (a1 m c) (a2 m c) (a3 m c) (a4 m c) (a5 m c) (a6 m c) (a7 m c) := by
  refine (W10_arr m ρ c 2).trans ((Region3.final (V9 m ρ) c).trans ?_)
  show biasRow64 (W9 m ρ c (Proc.devRef .tc main_v76)) (W9 m ρ c (Proc.devRef .tc main_v77)) = _
  rw [agg2_of, brow2_of, proj2, row64_eq]
  rfl

end Cert.KernelIdeal.Boundaries

end
-- ==== Proof.lean ====
/-
  A three-layer graph network: each layer projects the node features by a dense matrix, propagates them along the edges
  (messages weighted by the symmetric degree normalisation, gathered at the source and scatter-added at the target, self
  loops included), adds a bias and, but for the last layer, takes the maximum with zero. The kernel computes the three
  projections, fused with the previous layer's bias and rectifier, and the last bias in four pallas_calls over 25 row blocks
  of 2000 nodes; the propagation between them is the same host chain as the reference's.

  At the ideal instance the change of float format into a product is the identity and a block product into a zero
  accumulator is the plain sum over the contracted axis, so each pallas_call's result array is a dense layer (or a bias add)
  of whole arrays, index by index; the reference's `dot_general`s and broadcasts are the same functions; and the propagation
  is carried between the two programs as one function of the features it is applied to. No law of the extended reals beyond
  reading both sides at an index is used, so the precondition is never opened.

  The frames of the two kernel programs are the generated frame certificates; the reference's frame is its run with the
  result dropped; the ideal pass rewrote nothing, so the idealization claim is `True`.
-/
import proofs.«122918_j10368051053156_1_alg».proof.Defs
import proofs.«122918_j10368051053156_1_alg».proof.Proof.Gen.Kernel
import proofs.«122918_j10368051053156_1_alg».proof.Proof.Gen.Kernel.Frame
import proofs.«122918_j10368051053156_1_alg».proof.Proof.Gen.KernelIdeal
import proofs.«122918_j10368051053156_1_alg».proof.Proof.Gen.KernelIdeal.Frame
import proofs.«122918_j10368051053156_1_alg».proof.Proof.Gen.ReferenceIdeal
import proofs.«122918_j10368051053156_1_alg».proof.Proof.Gen.Pre_finite_inputs
import proofs.«122918_j10368051053156_1_alg».proof.Proof.KernelRun
import proofs.«122918_j10368051053156_1_alg».proof.Proof.Boundaries
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the network's function of the arguments: the kernel's by its run followed
    from boundary to boundary, the reference's by its run read stage by stage; the arguments agree. -/
theorem algebraic : Cert.algebraic_KernelIdeal_ReferenceIdeal := by
  intro m ρ m' ρ' _ hagree
  refine ⟨fun c => Cert.ReferenceIdeal.Stages.net (Cert.KernelIdeal.Carried.a0 m c) (Cert.KernelIdeal.Carried.a1 m c)
    (Cert.KernelIdeal.Carried.a2 m c) (Cert.KernelIdeal.Carried.a3 m c) (Cert.KernelIdeal.Carried.a4 m c)
    (Cert.KernelIdeal.Carried.a5 m c) (Cert.KernelIdeal.Carried.a6 m c) (Cert.KernelIdeal.Carried.a7 m c), ?_, ?_⟩
  · exact (θ_run Cert.KernelIdeal.defs _ _).mono (fun _ h c => ⟨(h c).1.trans (Cert.KernelIdeal.Boundaries.result m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v85_eq, Cert.ReferenceIdeal.Stages.v85_net]
    obtain ⟨h0, h1, h2, h3, h4, h5, h6, h7⟩ := hagree c
    rw [h0, h1, h2, h3, h4, h5, h6, h7]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
